-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x512 : Shape := ⟨2, ![4096, 512]⟩
abbrev S4096x32 : Shape := ⟨2, ![4096, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x512 32) (main_arg2 : FVec F S4096x32 .f32) (main_arg3 : FVec F S4096x32 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x512 : Shape := ⟨2, ![4096, 512]⟩
abbrev S4096x32 : Shape := ⟨2, ![4096, 32]⟩
abbrev S4096 : Shape := ⟨1, ![4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x32x128 : Shape := ⟨3, ![4096, 32, 128]⟩
abbrev S4096x32x1 : Shape := ⟨3, ![4096, 32, 1]⟩
abbrev S4096x4096 : Shape := ⟨2, ![4096, 4096]⟩
abbrev S1x4096 : Shape := ⟨2, ![1, 4096]⟩
abbrev S1024x256 : Shape := ⟨2, ![1024, 256]⟩
abbrev S256x2048 : Shape := ⟨2, ![256, 2048]⟩
abbrev S1x2048 : Shape := ⟨2, ![1, 2048]⟩
abbrev S1024x2048 : Shape := ⟨2, ![1024, 2048]⟩

abbrev nBuf : Space → Nat
  | .hbm => 30
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x512, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S4096x512x1, .i32⟩
  | .hbm, ⟨10, _⟩ => ⟨S1x1x8, .i32⟩
  | .hbm, ⟨11, _⟩ => ⟨S4096x512x8, .i32⟩
  | .hbm, ⟨12, _⟩ => ⟨S4096x512x8, .i32⟩
  | .hbm, ⟨13, _⟩ => ⟨S4096x512x8, .i32⟩
  | .hbm, ⟨14, _⟩ => ⟨S_, .i32⟩
  | .hbm, ⟨15, _⟩ => ⟨S4096x512x8, .i32⟩
  | .hbm, ⟨16, _⟩ => ⟨S4096x512x8, .i32⟩
  | .hbm, ⟨17, _⟩ => ⟨S4096x32x128, .i32⟩
  | .hbm, ⟨18, _⟩ => ⟨S4096x32x128, .f32⟩
  | .hbm, ⟨19, _⟩ => ⟨S4096x32x1, .f32⟩
  | .hbm, ⟨20, _⟩ => ⟨S4096x32x128, .f32⟩
  | .hbm, ⟨21, _⟩ => ⟨S4096x32x128, .f32⟩
  | .hbm, ⟨22, _⟩ => ⟨S4096x32x1, .f32⟩
  | .hbm, ⟨23, _⟩ => ⟨S4096x32x128, .f32⟩
  | .hbm, ⟨24, _⟩ => ⟨S4096x32x128, .f32⟩
  | .hbm, ⟨25, _⟩ => ⟨S4096x4096, .f32⟩
  | .hbm, ⟨26, _⟩ => ⟨S4096x4096, .bf16⟩
  | .hbm, ⟨27, _⟩ => ⟨S4096x4096, .bf16⟩
  | .hbm, ⟨28, _⟩ => ⟨S1x4096, .f32⟩
  | .hbm, ⟨29, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x32x128 : S4096x512x8.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .bf16 = 32 ∨ (Rect.block (s := S4096x4096) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x512 : Shape := ⟨2, ![4096, 512]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 108
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x512, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S_, .i1⟩
  | .hbm, ⟨22, _⟩ => ⟨S4096, .i1⟩
  | .hbm, ⟨23, _⟩ => ⟨S4096, .i1⟩
  | .hbm, ⟨24, _⟩ => ⟨S4096, .i1⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S4096x4096, .i32⟩
  | .hbm, ⟨58, _⟩ => ⟨S1x4096, .i32⟩
  | .hbm, ⟨59, _⟩ => ⟨S4096x4096, .i32⟩
  | .hbm, ⟨60, _⟩ => ⟨S4096x4096, .i32⟩
  | .hbm, ⟨61, _⟩ => ⟨S_, .i32⟩
  | .hbm, ⟨62, _⟩ => ⟨S4096x4096, .i32⟩
  | .hbm, ⟨63, _⟩ => ⟨S4096x4096, .i32⟩
  | .hbm, ⟨64, _⟩ => ⟨S_, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x4096, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x4096, .f32⟩
  | .hbm, ⟨92, _⟩ => ⟨S4096x4096, .f32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S_, .i32⟩
  | .hbm, ⟨97, _⟩ => ⟨S4096, .i32⟩
  | .hbm, ⟨98, _⟩ => ⟨S4096, .i32⟩
  | .hbm, ⟨99, _⟩ => ⟨S4096, .i32⟩
  | .hbm, ⟨100, _⟩ => ⟨S4096x1, .i32⟩
  | .hbm, ⟨101, _⟩ => ⟨S4096x4096, .f32⟩
  | .hbm, ⟨102, _⟩ => ⟨S4096x4096, .f32⟩
  | .hbm, ⟨103, _⟩ => ⟨S4096x4096, .f32⟩
  | .hbm, ⟨104, _⟩ => ⟨S8192x4096, .f32⟩
  | .hbm, ⟨105, _⟩ => ⟨S1x4096, .f32⟩
  | .hbm, ⟨106, _⟩ => ⟨S8192x4096, .f32⟩
  | .hbm, ⟨107, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_c_2 : Ref sig .tc := ⟨.hbm, 49, rfl⟩
abbrev main_v5 : Ref sig .tc := ⟨.hbm, 50, rfl⟩
abbrev main_v6 : Ref sig .tc := ⟨.hbm, 51, rfl⟩
abbrev main_c_3 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_c_4 : Ref sig .tc := ⟨.hbm, 61, rfl⟩
abbrev main_v15 : Ref sig .tc := ⟨.hbm, 62, rfl⟩
abbrev main_v16 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v17 : Ref sig .tc := ⟨.hbm, 81, rfl⟩
abbrev main_v18 : Ref sig .tc := ⟨.hbm, 82, rfl⟩
abbrev main_c_6 : Ref sig .tc := ⟨.hbm, 83, rfl⟩
abbrev main_v19 : Ref sig .tc := ⟨.hbm, 84, rfl⟩
abbrev main_v20 : Ref sig .tc := ⟨.hbm, 85, rfl⟩
abbrev main_c_7 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_c_8 : Ref sig .tc := ⟨.hbm, 93, rfl⟩
abbrev main_v27 : Ref sig .tc := ⟨.hbm, 94, rfl⟩
abbrev main_v28 : Ref sig .tc := ⟨.hbm, 95, rfl⟩
abbrev main_c_9 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  bcast_S1x4096_S8192x4096_0_1 : S1x4096.BroadcastsInDim S8192x4096 (![0, 1] : Fin 2 → Fin S8192x4096.rank)
  gather_S4096x512_S4096x1_S4096x4096_0_1_n_n_1_1_40961_wf : GatherDims.WF S4096x512 S4096x1 S4096x4096 [0] [1] [] [1] [] 1 ![4096, 1]
  gather_S4096x32_S4096x1_S4096x4096_0_1_n_n_1_1_40961_wf : GatherDims.WF S4096x32 S4096x1 S4096x4096 [0] [1] [] [1] [] 1 ![4096, 1]
  dot_S8192x4096_S4096x4096_S8192x4096_1_0_0_1_n_n_wf : DotDims.WF S8192x4096 S4096x4096 S8192x4096 [1] [0] [0] [1] [] []

variable [Facts₀]

def gather_S4096x512_S4096x1_S4096x4096_0_1_n_n_1_1_40961 : GatherDims S4096x512 S4096x1 S4096x4096 where
  offsetDims := [0]
  collapsedSliceDims := [1]
  operandBatchingDims := []
  startIndicesBatchingDims := []
  startIndexMap := [1]
  indexVectorDim := 1
  sliceSizes := ![4096, 1]
  wf := gather_S4096x512_S4096x1_S4096x4096_0_1_n_n_1_1_40961_wf
def gather_S4096x32_S4096x1_S4096x4096_0_1_n_n_1_1_40961 : GatherDims S4096x32 S4096x1 S4096x4096 where
  offsetDims := [0]
  collapsedSliceDims := [1]
  operandBatchingDims := []
  startIndicesBatchingDims := []
  startIndexMap := [1]
  indexVectorDim := 1
  sliceSizes := ![4096, 1]
  wf := gather_S4096x32_S4096x1_S4096x4096_0_1_n_n_1_1_40961_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics both programs compute, stated once over the argument arrays and read at the extended reals.

  A packed word `q[o, c]` holds eight 4-bit fields; field `s` is `(q[o, c] >> 4·s) & 15`. Column `k` of the
  dequantised weight's row `o` is field `k % 8` of word `k / 8`, converted to a float, minus the zero point of
  group `k / 128`, times that group's scale. The result is `x · Wᵀ + bias`:
  `out[r, n] = (∑ k, x[r, k] · W[n, k]) + bias[n]`.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 4096]⟩
abbrev SQ : Shape := ⟨2, ![4096, 512]⟩
abbrev SG : Shape := ⟨2, ![4096, 32]⟩
abbrev SB : Shape := ⟨1, ![4096]⟩

/-- The 4-bit field of weight row `o` at input column `k`: word `k / 8` of the row shifted right (arithmetically)
    by `4 · (k % 8)` and masked to its low four bits. -/
def nib (q : IVec SQ 32) (o k : Fin 4096) : BitVec 32 :=
  IntOp.andi (IntOp.shrsi .host (q (ix2 o ⟨k.val / 8, by have := k.isLt; omega⟩))
    (IntOp.muli (BitVec.ofNat 32 (k.val % 8)) 4#32)) 15#32

/-- The dequantised weight `W[o, k] = (float(field) − zero[o, k / 128]) · scale[o, k / 128]`. -/
def wdq (q : IVec SQ 32) (sc zs : FVec Ideal SG .f32) (o k : Fin 4096) : EReal :=
  ((FloatOps.sitofp (F := Ideal) .f32 (nib q o k) : Ideal .f32) - zs (ix2 o ⟨k.val / 128, by have := k.isLt; omega⟩))
    * sc (ix2 o ⟨k.val / 128, by have := k.isLt; omega⟩)

/-- One entry of the result: row `r` of `x` against row `n` of the dequantised weight, plus the bias. -/
def outAt (x : FVec Ideal SX .f32) (q : IVec SQ 32) (sc zs : FVec Ideal SG .f32) (b : FVec Ideal SB .f32)
    (r : Fin 8192) (n : Fin 4096) : EReal :=
  (∑ k : Fin 4096, x (ix2 r k) * wdq q sc zs n k) + b (ix1 n)

/-- The whole result array. -/
def out (x : FVec Ideal SX .f32) (q : IVec SQ 32) (sc zs : FVec Ideal SG .f32) (b : FVec Ideal SB .f32) :
    FVec Ideal SX .f32 :=
  fun j => outAt x q sc zs b ⟨(j 0).val, idx2_lt0 j⟩ ⟨(j 1).val, idx2_lt1 j⟩

theorem out_ix2 (x : FVec Ideal SX .f32) (q : IVec SQ 32) (sc zs : FVec Ideal SG .f32) (b : FVec Ideal SB .f32)
    (r : Fin 8192) (n : Fin 4096) : out x q sc zs b (ix2 r n) = outAt x q sc zs b r n := rfl

/-! ## A sum over 4096 columns, taken 256 at a time -/

/-- A function on `Fin 4096` extended by zero to the naturals. -/
def ext0 (f : Fin 4096 → EReal) (k : ℕ) : EReal := if h : k < 4096 then f ⟨k, h⟩ else 0

theorem sum_fin_eq_range (f : Fin 4096 → EReal) : ∑ k : Fin 4096, f k = ∑ k ∈ Finset.range 4096, ext0 f k := by
  rw [Finset.sum_range]
  refine Finset.sum_congr rfl fun k _ => ?_
  unfold ext0
  rw [dif_pos k.isLt]

/-- The first `256·n` terms are the sum, over the first `n` blocks, of each block's 256 terms. -/
theorem sum_blocks (g : ℕ → EReal) (n : ℕ) :
    ∑ k ∈ Finset.range (256 * n), g k = ∑ s ∈ Finset.range n, ∑ kk ∈ Finset.range 256, g (256 * s + kk) := by
  induction n with
  | zero => simp
  | succ n ih =>
    rw [Finset.sum_range_succ, ← ih, show 256 * (n + 1) = 256 * n + 256 by ring, Finset.sum_range_add]

/-- The whole sum over 4096 columns is the sum of its sixteen blocks of 256. -/
theorem sum_4096_blocks (f : Fin 4096 → EReal) :
    ∑ k : Fin 4096, f k = ∑ s ∈ Finset.range 16, ∑ kk : Fin 256, ext0 f (256 * s + kk.val) := by
  rw [sum_fin_eq_range, show (4096 : ℕ) = 256 * 16 by norm_num, sum_blocks]
  refine Finset.sum_congr rfl fun s _ => ?_
  rw [Finset.sum_range]

end Cert.Spec

end
-- ==== Proof.KerHost.lean ====
/-
  What the kernel's region finds in the two arrays the host operations before it wrote: the transposed dequantised
  weight (entry `(k, n)` is `W[n, k]`) and the bias as a one-row matrix.

  The host operations, in order: the shift amounts `4·s` for `s < 8`; each packed word repeated eight times along a new
  last axis, shifted right by `4·s` and masked to four bits (`[4096, 512, 8]`); the same entries regrouped as
  `[4096, 32, 128]` (flat position `8·c + s = 128·g + r` within a row, so column `k = 128·g + r` reads word `k / 8`,
  field `k % 8`); converted to a float; the group's zero point subtracted and the group's scale multiplied, each
  repeated along the group's 128 columns; flattened to `[4096, 4096]`; a change of format (the identity at the
  extended reals); transposed.
-/
import proofs.«413098_j6992206758378_2_alg».proof.Proof.Gen.KernelIdeal.Frame
import proofs.«413098_j6992206758378_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.ValueIdx

/-- The shift amounts: entry `s` is `4 · s`. -/
def shamt : IVec S8 32 :=
  muli (iotaInDim S8 32 0) (broadcastInDim S8 ![] Facts₀.bcast_S_S8 (constantI S_ 32 4#32))

/-- The unpacked 4-bit fields as `[4096, 512, 8]`. -/
def nibs (q : IVec S4096x512 32) : IVec S4096x512x8 32 :=
  andi
    (Host.shrsi
      (broadcastInDim S4096x512x8 ![0, 1, 2] Facts₀.bcast_S4096x512x1_S4096x512x8_0_1_2
        (broadcastInDim S4096x512x1 ![0, 1] Facts₀.bcast_S4096x512_S4096x512x1_0_1 q))
      (broadcastInDim S4096x512x8 ![0, 1, 2] Facts₀.bcast_S1x1x8_S4096x512x8_0_1_2
        (broadcastInDim S1x1x8 ![2] Facts₀.bcast_S8_S1x1x8_2 shamt)))
    (broadcastInDim S4096x512x8 ![] Facts₀.bcast_S_S4096x512x8 (constantI S_ 32 15#32))

/-- A per-group parameter `[4096, 32]` repeated along each group's 128 columns. -/
def grp (p : FVec Ideal S4096x32 .f32) : FVec Ideal S4096x32x128 .f32 :=
  broadcastInDim S4096x32x128 ![0, 1, 2] Facts₀.bcast_S4096x32x1_S4096x32x128_0_1_2
    (broadcastInDim S4096x32x1 ![0, 1] Facts₀.bcast_S4096x32_S4096x32x1_0_1 p)

/-- The dequantised weight grouped as `[4096, 32, 128]`. -/
def deq (q : IVec S4096x512 32) (sc zs : FVec Ideal S4096x32 .f32) : FVec Ideal S4096x32x128 .f32 :=
  mulf (subf (sitofp .f32 (shapeCast S4096x32x128 (nibs q) Facts₀.shapeCasts_S4096x512x8_S4096x32x128)) (grp zs)) (grp sc)

/-- The array the host operations hand the region: the dequantised weight, flattened to a matrix, transposed. -/
def hostW (q : IVec S4096x512 32) (sc zs : FVec Ideal S4096x32 .f32) : FVec Ideal S4096x4096 .bf16 :=
  transpose S4096x4096 [1, 0]
    (truncf .bf16 (shapeCast S4096x4096 (deq q sc zs) Facts₀.shapeCasts_S4096x32x128_S4096x4096) Facts₀.bitsLt_bf16_f32)
    Facts₀.transposes_S4096x4096_S4096x4096_1_0

/-! ## The stages read at an index, over arbitrary argument arrays -/

theorem grp_apply (p : FVec Ideal S4096x32 .f32) (n : Fin 4096) (g : Fin 32) (r : Fin 128) :
    grp p (ix3 n g r) = p (ix2 n g) := by
  unfold grp
  refine (broadcastInDim_apply _ _ _ (ix3 n g r) (ix3 n g (0 : Fin 1)) ?_).trans ?_
  · intro a; match a with | ⟨0, _⟩ => rfl | ⟨1, _⟩ => rfl | ⟨2, _⟩ => rfl
  refine broadcastInDim_apply _ _ _ _ (ix2 n g) ?_
  intro a; match a with | ⟨0, _⟩ => rfl | ⟨1, _⟩ => rfl

theorem shamt_apply (s : Fin 8) : shamt (ix1 s) = IntOp.muli (BitVec.ofNat 32 s.val) 4#32 := by
  unfold shamt
  show IntOp.muli (BitVec.ofNat 32 s.val) (broadcastInDim S8 ![] Facts₀.bcast_S_S8 (constantI S_ 32 4#32) (ix1 s)) = _
  rw [broadcastInDim_apply ![] Facts₀.bcast_S_S8 (constantI S_ 32 4#32) (ix1 s) ix0 (fun a => a.elim0)]
  rfl

theorem nibs_apply (q : IVec S4096x512 32) (n : Fin 4096) (c : Fin 512) (s : Fin 8) :
    nibs q (ix3 n c s)
      = IntOp.andi (IntOp.shrsi .host (q (ix2 n c)) (IntOp.muli (BitVec.ofNat 32 s.val) 4#32)) 15#32 := by
  unfold nibs
  show IntOp.andi (IntOp.shrsi .host
      (broadcastInDim S4096x512x8 ![0, 1, 2] Facts₀.bcast_S4096x512x1_S4096x512x8_0_1_2
        (broadcastInDim S4096x512x1 ![0, 1] Facts₀.bcast_S4096x512_S4096x512x1_0_1 q) (ix3 n c s))
      (broadcastInDim S4096x512x8 ![0, 1, 2] Facts₀.bcast_S1x1x8_S4096x512x8_0_1_2
        (broadcastInDim S1x1x8 ![2] Facts₀.bcast_S8_S1x1x8_2 shamt) (ix3 n c s)))
      (broadcastInDim S4096x512x8 ![] Facts₀.bcast_S_S4096x512x8 (constantI S_ 32 15#32) (ix3 n c s)) = _
  have e1 : broadcastInDim S4096x512x8 ![0, 1, 2] Facts₀.bcast_S4096x512x1_S4096x512x8_0_1_2
        (broadcastInDim S4096x512x1 ![0, 1] Facts₀.bcast_S4096x512_S4096x512x1_0_1 q) (ix3 n c s) = q (ix2 n c) := by
    refine (broadcastInDim_apply _ _ _ (ix3 n c s) (ix3 n c (0 : Fin 1)) ?_).trans ?_
    · intro a; match a with | ⟨0, _⟩ => rfl | ⟨1, _⟩ => rfl | ⟨2, _⟩ => rfl
    refine broadcastInDim_apply _ _ _ _ (ix2 n c) ?_
    intro a; match a with | ⟨0, _⟩ => rfl | ⟨1, _⟩ => rfl
  have e2 : broadcastInDim S4096x512x8 ![0, 1, 2] Facts₀.bcast_S1x1x8_S4096x512x8_0_1_2
        (broadcastInDim S1x1x8 ![2] Facts₀.bcast_S8_S1x1x8_2 shamt) (ix3 n c s) = shamt (ix1 s) := by
    refine (broadcastInDim_apply _ _ _ (ix3 n c s) (ix3 (0 : Fin 1) (0 : Fin 1) s) ?_).trans ?_
    · intro a; match a with | ⟨0, _⟩ => rfl | ⟨1, _⟩ => rfl | ⟨2, _⟩ => rfl
    refine broadcastInDim_apply _ _ _ _ (ix1 s) ?_
    intro a; match a with | ⟨0, _⟩ => rfl
  have e3 : broadcastInDim S4096x512x8 ![] Facts₀.bcast_S_S4096x512x8 (constantI S_ 32 15#32) (ix3 n c s) = 15#32 :=
    broadcastInDim_apply ![] Facts₀.bcast_S_S4096x512x8 (constantI S_ 32 15#32) (ix3 n c s) ix0 (fun a => a.elim0)
  rw [e1, e2, e3, shamt_apply]

theorem deq_apply (q : IVec S4096x512 32) (sc zs : FVec Ideal S4096x32 .f32) (n k : Fin 4096) :
    deq q sc zs (ix3 n (⟨k.val / 128, by have := k.isLt; omega⟩ : Fin 32) (⟨k.val % 128, Nat.mod_lt _ (by norm_num)⟩ : Fin 128))
      = Cert.Spec.wdq q sc zs n k := by
  unfold deq
  show (FloatOps.sitofp (F := Ideal) .f32
          (shapeCast S4096x32x128 (nibs q) Facts₀.shapeCasts_S4096x512x8_S4096x32x128
            (ix3 n (⟨k.val / 128, by have := k.isLt; omega⟩ : Fin 32) (⟨k.val % 128, Nat.mod_lt _ (by norm_num)⟩ : Fin 128)))
        - grp zs (ix3 n (⟨k.val / 128, by have := k.isLt; omega⟩ : Fin 32) (⟨k.val % 128, Nat.mod_lt _ (by norm_num)⟩ : Fin 128)))
      * grp sc (ix3 n (⟨k.val / 128, by have := k.isLt; omega⟩ : Fin 32) (⟨k.val % 128, Nat.mod_lt _ (by norm_num)⟩ : Fin 128)) = _
  rw [grp_apply, grp_apply,
    shapeCast_apply (nibs q) Facts₀.shapeCasts_S4096x512x8_S4096x32x128 _
      (ix3 n (⟨k.val / 8, by have := k.isLt; omega⟩ : Fin 512) (⟨k.val % 8, Nat.mod_lt _ (by norm_num)⟩ : Fin 8))
      (by
        rw [Shape.rowMajor_val_three, Shape.rowMajor_val_three]
        show (n.val * 512 + k.val / 8) * 8 + k.val % 8 = (n.val * 32 + k.val / 128) * 128 + k.val % 128
        omega),
    nibs_apply]
  rfl

theorem hostW_apply (q : IVec S4096x512 32) (sc zs : FVec Ideal S4096x32 .f32) (k n : Fin 4096) :
    hostW q sc zs (ix2 k n) = Cert.Spec.wdq q sc zs n k := by
  unfold hostW
  refine (transpose_ix2_apply _ _ k n).trans ?_
  show shapeCast S4096x4096 (deq q sc zs) Facts₀.shapeCasts_S4096x32x128_S4096x4096 (ix2 n k) = _
  refine (shapeCast_apply _ _ (ix2 n k)
    (ix3 n (⟨k.val / 128, by have := k.isLt; omega⟩ : Fin 32) (⟨k.val % 128, Nat.mod_lt _ (by norm_num)⟩ : Fin 128)) ?_).trans
    (deq_apply q sc zs n k)
  rw [Shape.rowMajor_val_three, Shape.rowMajor_val_two]
  show (n.val * 32 + k.val / 128) * 128 + k.val % 128 = n.val * 4096 + k.val
  omega

/-! ## The two arrays as the region finds them -/

variable (m : (ℓ : Loc nD τ sig) → Buf (Elt Ideal) ℓ)

/-- The weight array the region is given is the host operations' composed value of the three argument arrays. -/
theorem V_v20_eq (c : Dev nD) :
    (V m c main_v20 : S4096x4096.Idx → EReal)
      = hostW (m ((c : Thread nD τ).loc main_arg1)) (m ((c : Thread nD τ).loc main_arg2)) (m ((c : Thread nD τ).loc main_arg3)) := by
  dsimp only [Gen.V, Gen.hostOps0]
  after_results_simp
  rfl

/-- The bias row the region is given is the bias argument with a unit axis added. -/
theorem V_v21_eq (c : Dev nD) :
    (V m c main_v21 : S1x4096.Idx → EReal)
      = shapeCast S1x4096 (m ((c : Thread nD τ).loc main_arg4)) Facts₀.shapeCasts_S4096_S1x4096 := by
  dsimp only [Gen.V, Gen.hostOps0]
  after_results
  rfl

/-- The weight array the region is given, at row `k` and column `n`: the dequantised weight `W[n, k]`. -/
theorem V_v20_apply (c : Dev nD) (k n : Fin 4096) :
    (V m c main_v20 : S4096x4096.Idx → EReal) (ix2 k n)
      = Cert.Spec.wdq (m ((c : Thread nD τ).loc main_arg1)) (m ((c : Thread nD τ).loc main_arg2))
          (m ((c : Thread nD τ).loc main_arg3)) n k := by
  rw [V_v20_eq]
  exact hostW_apply _ _ _ k n

/-- The bias row the region is given, at column `n`. -/
theorem V_v21_apply (c : Dev nD) (n : Fin 4096) :
    (V m c main_v21 : S1x4096.Idx → EReal) (ix2 (0 : Fin 1) n) = m ((c : Thread nD τ).loc main_arg4) (ix1 n) := by
  rw [V_v21_eq]
  exact shapeCast_a_1a_apply _ _ (0 : Fin 1) n

end Cert.KernelIdeal.HostValue

end
-- ==== Proof.KerValue.lean ====
/-
  The kernel's result array, read at the extended reals.

  The grid has 8 × 2 × 16 points; point `t` is row block `t / 32`, column block `(t / 16) % 2` and step `t % 16` of the
  contraction. The scratch accumulator is zeroed at step 0 and gains, at every step, the product of the step's
  1024 × 256 block of `x` with its 256 × 2048 block of the transposed weight; at step 15 the accumulator plus the bias
  row is stored to the output block. So the accumulator after step `s` of a run is the sum of the first `s + 1`
  block products, the output block at an entry is all sixteen plus the bias, and sixteen sums of 256 products are
  the one sum over the 4096 columns. The output blocks written at the sixteen-th steps tile the array.
-/
import proofs.«413098_j6992206758378_2_alg».proof.Proof.Gen.KernelIdeal.Value
import proofs.«413098_j6992206758378_2_alg».proof.Proof.Spec
import proofs.«413098_j6992206758378_2_alg».proof.Proof.KerHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
set_option maxRecDepth 16384
noncomputable section
namespace Cert.KernelIdeal.KerValue
open Cert.KernelIdeal Cert.KernelIdeal.Gen Idealize.ShloMosaic Idealize.ShloMosaic.TcCoe Idealize.SL.Sem Idealize.ShloMosaic.Tactic
open Idealize.ShloMosaic.Pipeline (Dat)

/-! ## What each case of the body leaves, as the body's own arithmetic of its loads -/

section Pieces
variable {F : FTy → Type} [FloatOps F]

theorem hz : (![0, 0] : Fin 2 → Nat) = fun _ => 0 := by funext a; fin_cases a <;> rfl

/-- At a run's first step the accumulator is zeroed and then gains the step's product. -/
theorem pieceA (c : Dev nD) (i : grid0.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i) (x0 : Vec F S1024x256 .f32) (x1 : Vec F S256x2048 .bf16) (x2 : Vec F S1x2048 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, Memref.IsWhole.read_unread, View.ld_unit_zero (S := S1024x256) hz, View.ld_unit_zero (S := S256x2048) hz, View.ld_unit_zero (S := S1x2048) hz, View.ld_unit_zero (S := S1024x2048) hz]

/-- At a middle step the accumulator gains the step's product. -/
theorem pieceB (c : Dev nD) (i : grid0.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i) (x0 : Vec F S1024x256 .f32) (x1 : Vec F S256x2048 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x2048) hz]
  simp only [View.readAt_eq_ld, Memref.IsWhole.read_unread, View.ld_unit_zero (S := S1024x256) hz, View.ld_unit_zero (S := S256x2048) hz, View.ld_unit_zero (S := S1x2048) hz, View.ld_unit_zero (S := S1024x2048) hz]

/-- At the last step the accumulator gains the step's product, -/
theorem pieceC (c : Dev nD) (i : grid0.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i) (x0 : Vec F S1024x256 .f32) (x1 : Vec F S256x2048 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x2048) hz]
  simp only [View.readAt_eq_ld, Memref.IsWhole.read_unread, View.ld_unit_zero (S := S1024x256) hz, View.ld_unit_zero (S := S256x2048) hz, View.ld_unit_zero (S := S1x2048) hz, View.ld_unit_zero (S := S1024x2048) hz]

/-- and the output block is that accumulator plus the bias row. -/
theorem pieceC3 (c : Dev nD) (i : grid0.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i) (x0 : Vec F S1024x256 .f32) (x1 : Vec F S256x2048 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) hz, View.readCov_unit_zero (S := S1024x2048) _ hz]
  simp only [View.readAt_eq_ld, Memref.IsWhole.read_unread, View.ld_unit_zero (S := S1024x256) hz, View.ld_unit_zero (S := S256x2048) hz, View.ld_unit_zero (S := S1x2048) hz, View.ld_unit_zero (S := S1024x2048) hz]

end Pieces

/-! ## At the extended reals -/

section AtIdeal
open Idealize.ShloMosaic.ValueIdx

theorem lhs_val0 (j : S1024x2048.Idx) (k : dot_S1024x256_S256x2048_S1024x2048_1_0_0_1_n_n.contr.Idx) :
    (dot_S1024x256_S256x2048_S1024x2048_1_0_0_1_n_n.lhsIdx j k 0).val = (j 0).val := rfl
theorem lhs_val1 (j : S1024x2048.Idx) (k : dot_S1024x256_S256x2048_S1024x2048_1_0_0_1_n_n.contr.Idx) :
    (dot_S1024x256_S256x2048_S1024x2048_1_0_0_1_n_n.lhsIdx j k 1).val = (k ⟨0, by decide⟩).val := rfl
theorem rhs_val0 (j : S1024x2048.Idx) (k : dot_S1024x256_S256x2048_S1024x2048_1_0_0_1_n_n.contr.Idx) :
    (dot_S1024x256_S256x2048_S1024x2048_1_0_0_1_n_n.rhsIdx j k 0).val = (k ⟨0, by decide⟩).val := rfl
theorem rhs_val1 (j : S1024x2048.Idx) (k : dot_S1024x256_S256x2048_S1024x2048_1_0_0_1_n_n.contr.Idx) :
    (dot_S1024x256_S256x2048_S1024x2048_1_0_0_1_n_n.rhsIdx j k 1).val = (j 1).val := rfl

/-- One block product read at an entry: the 256 products of row `p` of the left block with column `q` of the
    right block, summed. -/
theorem blockProd_apply (a : FVec Ideal S1024x256 .bf16) (b : FVec Ideal S256x2048 .bf16) (p : Fin 1024) (q : Fin 2048) :
    matmul dot_S1024x256_S256x2048_S1024x2048_1_0_0_1_n_n none a b (constant (F := Ideal) S1024x2048 .f32 0x00000000#32) (ix2 p q)
      = ∑ kk : Fin 256, a (ix2 p kk) * b (ix2 kk q) := by
  simp only [matmul]
  rw [Ideal.matmul_constant_zero_apply,
    ← Equiv.sum_comp (contrEquiv1 dot_S1024x256_S256x2048_S1024x2048_1_0_0_1_n_n 256 rfl rfl).symm]
  refine Finset.sum_congr rfl fun kk _ => ?_
  have hk := contrEquiv1_symm_val dot_S1024x256_S256x2048_S1024x2048_1_0_0_1_n_n 256 rfl rfl kk
  congr 1
  · refine congrArg a (funext fun ax => Fin.ext ?_)
    match ax with
    | ⟨0, _⟩ => exact lhs_val0 _ _
    | ⟨1, _⟩ => exact (lhs_val1 _ _).trans hk
  · refine congrArg b (funext fun ax => Fin.ext ?_)
    match ax with
    | ⟨0, _⟩ => exact (rhs_val0 _ _).trans hk
    | ⟨1, _⟩ => exact rhs_val1 _ _

/-- The accumulating store's value at an entry: what the accumulator held there plus the block product. -/
theorem pay2_apply (x0 : Vec Ideal S1024x256 .f32) (x1 : Vec Ideal S256x2048 .bf16) (acc : Vec Ideal S1024x2048 .f32)
    (p : Fin 1024) (q : Fin 2048) :
    k0_pay2 x0 x1 acc (ix2 p q) = acc (ix2 p q) + ∑ kk : Fin 256, x0 (ix2 p kk) * x1 (ix2 kk q) := by
  unfold k0_pay2
  simp only [shapeCast_self]
  rw [addf_apply, blockProd_apply]
  rfl

/-- The zeroing store's value is zero. -/
theorem pay1_apply (y : S1024x2048.Idx) : k0_pay1 (F := Ideal) y = 0 := by
  unfold k0_pay1
  simp only [shapeCast_self]
  exact Ideal.ofBits_zero_f32

/-- The output store's value at an entry: the accumulator there plus the bias row at the entry's column. -/
theorem pay3_apply (acc : Vec Ideal S1024x2048 .f32) (bias : Vec Ideal S1x2048 .f32) (p : Fin 1024) (q : Fin 2048) :
    k0_pay3 acc bias (ix2 p q) = acc (ix2 p q) + bias (ix2 (0 : Fin 1) q) := by
  unfold k0_pay3
  simp only [shapeCast_self]
  rw [addf_apply, broadcastTo_1b_ab_apply]

variable (m : (ℓ : Loc nD τ sig) → Buf (Elt Ideal) ℓ)

/-- The blocks the body loads at point `t`, at their literal types. -/
abbrev xblk (c : Dev nD) (t : Fin cfg0.N) : Vec Ideal S1024x256 .f32 := iblk m c 0 t
abbrev wblk (c : Dev nD) (t : Fin cfg0.N) : Vec Ideal S256x2048 .bf16 := iblk m c 1 t
abbrev bblk (c : Dev nD) (t : Fin cfg0.N) : Vec Ideal S1x2048 .f32 := iblk m c 2 t

theorem lt256 (t : Fin cfg0.N) : t.val < 256 := lt_of_lt_of_eq t.isLt (show cfg0.N = 256 from N_0)

/-- The row of `x` and of the result that local row `p` of point `t`'s blocks is, -/
def rowOf (t : Fin cfg0.N) (p : Fin 1024) : Fin 8192 := ⟨1024 * (t.val / 32) + p.val, by have := lt256 t; omega⟩
/-- the column of the result, -/
def colOf (t : Fin cfg0.N) (q : Fin 2048) : Fin 4096 := ⟨2048 * (t.val / 16 % 2) + q.val, by omega⟩
/-- and the contraction column. -/
def kOf (t : Fin cfg0.N) (kk : Fin 256) : Fin 4096 := ⟨256 * (t.val % 16) + kk.val, by omega⟩

/-- The printed index maps, decided over the grid's 256 points. -/
theorem idx_facts : ∀ t : Fin cfg0.N,
    win0_0.index t (0 : Fin 2) = t.val / 32 ∧ win0_0.index t (1 : Fin 2) = t.val % 16
    ∧ win0_1.index t (0 : Fin 2) = t.val % 16 ∧ win0_1.index t (1 : Fin 2) = t.val / 16 % 2
    ∧ win0_2.index t (0 : Fin 2) = 0 ∧ win0_2.index t (1 : Fin 2) = t.val / 16 % 2
    ∧ win0_3.index t (0 : Fin 2) = t.val / 32 ∧ win0_3.index t (1 : Fin 2) = t.val / 16 % 2 :=
  (by decide +kernel : ∀ t : Fin grid0.N, _)

/-- The block of `x` at point `t` reads `x` at the point's row block and contraction step. -/
theorem xblk_apply (c : Dev nD) (t : Fin cfg0.N) (p : Fin 1024) (kk : Fin 256) :
    xblk m c t (ix2 p kk) = m ((c : Thread nD τ).loc main_arg0) (ix2 (rowOf t p) (kOf t kk)) := by
  show V m c main_arg0 (((cfg0.win 0).blk t).view.emb (ix2 p kk)) = _
  refine (congrFun (V_main_arg0 m c) _).trans ?_
  refine congrArg _ (funext fun a => Fin.ext ?_)
  obtain ⟨e0, e1, -⟩ := idx_facts t
  match a with
  | ⟨0, _⟩ => show win0_0.index t (0 : Fin 2) * 1024 + 1 * p.val = 1024 * (t.val / 32) + p.val; omega
  | ⟨1, _⟩ => show win0_0.index t (1 : Fin 2) * 256 + 1 * kk.val = 256 * (t.val % 16) + kk.val; omega

/-- The block of the transposed weight at point `t` reads the dequantised weight of the point's column block at the
    contraction step. -/
theorem wblk_apply (c : Dev nD) (t : Fin cfg0.N) (kk : Fin 256) (q : Fin 2048) :
    wblk m c t (ix2 kk q)
      = Cert.Spec.wdq (m ((c : Thread nD τ).loc main_arg1)) (m ((c : Thread nD τ).loc main_arg2))
          (m ((c : Thread nD τ).loc main_arg3)) (colOf t q) (kOf t kk) := by
  rw [← HostValue.V_v20_apply m c (kOf t kk) (colOf t q)]
  show V m c main_v20 (((cfg0.win 1).blk t).view.emb (ix2 kk q)) = _
  refine congrArg _ (funext fun a => Fin.ext ?_)
  obtain ⟨-, -, e2, e3, -⟩ := idx_facts t
  match a with
  | ⟨0, _⟩ => show win0_1.index t (0 : Fin 2) * 256 + 1 * kk.val = 256 * (t.val % 16) + kk.val; omega
  | ⟨1, _⟩ => show win0_1.index t (1 : Fin 2) * 2048 + 1 * q.val = 2048 * (t.val / 16 % 2) + q.val; omega

/-- The bias block at point `t` reads the bias at the point's column block. -/
theorem bblk_apply (c : Dev nD) (t : Fin cfg0.N) (q : Fin 2048) :
    bblk m c t (ix2 (0 : Fin 1) q) = m ((c : Thread nD τ).loc main_arg4) (ix1 (colOf t q)) := by
  rw [← HostValue.V_v21_apply m c (colOf t q)]
  show V m c main_v21 (((cfg0.win 2).blk t).view.emb (ix2 (0 : Fin 1) q)) = _
  refine congrArg _ (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 2048 + 1 * q.val = 2048 * (t.val / 16 % 2) + q.val; omega

/-! ## The accumulator after each point -/

/-- What point `n` adds to the accumulator at an entry: the product of its two blocks there (zero past the grid). -/
def addend (c : Dev nD) (n : ℕ) (y : S1024x2048.Idx) : EReal :=
  if h : n < cfg0.N then
    ∑ kk : Fin 256, xblk m c ⟨n, h⟩ (ix2 (⟨(y 0).val, idx2_lt0 y⟩ : Fin 1024) kk)
      * wblk m c ⟨n, h⟩ (ix2 kk (⟨(y 1).val, idx2_lt1 y⟩ : Fin 2048))
  else 0

theorem pay2_at (x0 : Vec Ideal S1024x256 .f32) (x1 : Vec Ideal S256x2048 .bf16) (acc : Vec Ideal S1024x2048 .f32)
    (y : S1024x2048.Idx) :
    k0_pay2 x0 x1 acc y = acc y + ∑ kk : Fin 256, x0 (ix2 (⟨(y 0).val, idx2_lt0 y⟩ : Fin 1024) kk)
      * x1 (ix2 kk (⟨(y 1).val, idx2_lt1 y⟩ : Fin 2048)) := by
  obtain ⟨p, q, rfl⟩ : ∃ (p : Fin 1024) (q : Fin 2048), y = ix2 p q := ⟨y 0, y 1, eq_ix2 y⟩
  exact pay2_apply x0 x1 acc p q

/-- A point at the start of a run of sixteen leaves zero plus its product; -/
theorem step_first (c : Dev nD) (n : ℕ) (hb : n < cfg0.N) (h0 : n % 16 = 0) (acc : Vec Ideal S1024x2048 .f32)
    (y : S1024x2048.Idx) : Value.scAt0_0 m c n hb acc y = 0 + addend m c n y := by
  have h1 : ¬ n % 16 = 15 := by omega
  unfold Value.scAt0_0
  rw [dif_pos h0, dif_neg h1]
  refine (congrFun (pieceA (F := Ideal) c (grid0.coords (⟨n, hb⟩ : Fin cfg0.N)) (ms0_0 ⟨n, hb⟩) (hs0_0 ⟨n, hb⟩)
    (ms0_1 ⟨n, hb⟩) (hs0_1 ⟨n, hb⟩) (ms0_2 ⟨n, hb⟩) (hs0_2 ⟨n, hb⟩) (ms0_3 ⟨n, hb⟩) (hs0_3 ⟨n, hb⟩) scM0_0
    (Memref.isWhole_whole _) _ _ (iblk m c 0 ⟨n, hb⟩) (iblk m c 1 ⟨n, hb⟩) (iblk m c 2 ⟨n, hb⟩)) y).trans ?_
  refine (pay2_at (xblk m c ⟨n, hb⟩) (wblk m c ⟨n, hb⟩) _ y).trans ?_
  unfold addend
  rw [dif_pos hb, pay1_apply]

/-- any later point of the run adds its product to what the point before left. -/
theorem step_next (c : Dev nD) (n : ℕ) (hb : n < cfg0.N) (h0 : ¬ n % 16 = 0) (acc : Vec Ideal S1024x2048 .f32)
    (y : S1024x2048.Idx) : Value.scAt0_0 m c n hb acc y = acc y + addend m c n y := by
  unfold Value.scAt0_0
  rw [dif_neg h0]
  by_cases h1 : n % 16 = 15
  · rw [dif_pos h1]
    refine (congrFun (pieceC (F := Ideal) c (grid0.coords (⟨n, hb⟩ : Fin cfg0.N)) (ms0_0 ⟨n, hb⟩) (hs0_0 ⟨n, hb⟩)
      (ms0_1 ⟨n, hb⟩) (hs0_1 ⟨n, hb⟩) (ms0_2 ⟨n, hb⟩) (hs0_2 ⟨n, hb⟩) (ms0_3 ⟨n, hb⟩) (hs0_3 ⟨n, hb⟩) scM0_0
      (Memref.isWhole_whole _) _ _ (iblk m c 0 ⟨n, hb⟩) (iblk m c 1 ⟨n, hb⟩) (iblk m c 2 ⟨n, hb⟩) acc) y).trans ?_
    refine (pay2_at (xblk m c ⟨n, hb⟩) (wblk m c ⟨n, hb⟩) acc y).trans ?_
    unfold addend
    rw [dif_pos hb]
  · rw [dif_neg h1]
    refine (congrFun (pieceB (F := Ideal) c (grid0.coords (⟨n, hb⟩ : Fin cfg0.N)) (ms0_0 ⟨n, hb⟩) (hs0_0 ⟨n, hb⟩)
      (ms0_1 ⟨n, hb⟩) (hs0_1 ⟨n, hb⟩) (ms0_2 ⟨n, hb⟩) (hs0_2 ⟨n, hb⟩) (ms0_3 ⟨n, hb⟩) (hs0_3 ⟨n, hb⟩) scM0_0
      (Memref.isWhole_whole _) _ _ (iblk m c 0 ⟨n, hb⟩) (iblk m c 1 ⟨n, hb⟩) (iblk m c 2 ⟨n, hb⟩) acc) y).trans ?_
    refine (pay2_at (xblk m c ⟨n, hb⟩) (wblk m c ⟨n, hb⟩) acc y).trans ?_
    unfold addend
    rw [dif_pos hb]

/-- THE ACCUMULATOR after point `n`: the products of the run's points up to `n`, summed. -/
theorem scratch_apply (c : Dev nD) (n : ℕ) (hn : n < cfg0.N) (y : S1024x2048.Idx) :
    (outsAt0 m c n hn).2 y = ∑ s ∈ Finset.range (n % 16 + 1), addend m c (16 * (n / 16) + s) y := by
  have hN : n < 256 := lt_of_lt_of_eq hn (show cfg0.N = 256 from N_0)
  have hfold := Value.soutsAt0_0_eq m c ⟨n, hn⟩
  dsimp only at hfold
  rw [hfold]
  have key := Pipeline.accAt_add_apply (N := cfg0.N)
    (fun n h => Value.scAt0_0 m c n h (VS0_0.read (Elt Ideal) VS0_0.junk)) (Value.scAt0_0 m c)
    (fun _ => (0 : EReal)) (addend m c) (16 * (n / 16)) 15
    (fun h i => step_first m c _ h (by omega) _ i)
    (fun k h acc i hlt hle => step_next m c k h (by omega) acc i)
    (n % 16) (by omega)
  rw [key, zero_add]

end AtIdeal

/-! ## The output blocks and the array -/

section Result
open Idealize.ShloMosaic.ValueIdx

variable (m : (ℓ : Loc nD τ sig) → Buf (Elt Ideal) ℓ)

theorem lt_N {n : ℕ} (h : n < 256) : n < cfg0.N := lt_of_lt_of_eq h (show (256 : ℕ) = cfg0.N from N_0.symm)

/-- The launch arguments at their literal types. -/
abbrev xarr (c : Dev nD) : FVec Ideal S8192x4096 .f32 := m ((c : Thread nD τ).loc main_arg0)

/-- What the result array is to hold: the specification at the launch arguments. -/
abbrev result (c : Dev nD) : Buf (Elt Ideal) ((c : Thread nD τ).loc main_v22) :=
  Cert.Spec.out (m ((c : Thread nD τ).loc main_arg0)) (m ((c : Thread nD τ).loc main_arg1))
    (m ((c : Thread nD τ).loc main_arg2)) (m ((c : Thread nD τ).loc main_arg3)) (m ((c : Thread nD τ).loc main_arg4))

/-- The products one point of `t`'s run adds at an entry are one block of 256 terms of the entry's sum over the
    4096 columns. -/
theorem addend_eq (c : Dev nD) (t : Fin cfg0.N) (s : ℕ) (hs : s < 16) (p : Fin 1024) (q : Fin 2048) :
    addend m c (16 * (t.val / 16) + s) (ix2 p q)
      = ∑ kk : Fin 256, Cert.Spec.ext0 (fun k => xarr m c (ix2 (rowOf t p) k)
          * Cert.Spec.wdq (m ((c : Thread nD τ).loc main_arg1)) (m ((c : Thread nD τ).loc main_arg2))
              (m ((c : Thread nD τ).loc main_arg3)) (colOf t q) k) (256 * s + kk.val) := by
  have ht := lt256 t
  have hlt : 16 * (t.val / 16) + s < cfg0.N := lt_N (by omega)
  unfold addend
  rw [dif_pos hlt]
  refine Finset.sum_congr rfl fun kk _ => ?_
  have hk : 256 * s + kk.val < 4096 := by have := kk.isLt; omega
  rw [xblk_apply, wblk_apply]
  unfold Cert.Spec.ext0
  rw [dif_pos hk]
  have e1 : rowOf (⟨16 * (t.val / 16) + s, hlt⟩ : Fin cfg0.N) (⟨((ix2 p q : S1024x2048.Idx) 0).val, idx2_lt0 (ix2 p q)⟩ : Fin 1024) = rowOf t p :=
    Fin.ext (by show 1024 * ((16 * (t.val / 16) + s) / 32) + p.val = 1024 * (t.val / 32) + p.val; omega)
  have e2 : colOf (⟨16 * (t.val / 16) + s, hlt⟩ : Fin cfg0.N) (⟨((ix2 p q : S1024x2048.Idx) 1).val, idx2_lt1 (ix2 p q)⟩ : Fin 2048) = colOf t q :=
    Fin.ext (by show 2048 * ((16 * (t.val / 16) + s) / 16 % 2) + q.val = 2048 * (t.val / 16 % 2) + q.val; omega)
  have e3 : kOf (⟨16 * (t.val / 16) + s, hlt⟩ : Fin cfg0.N) kk = (⟨256 * s + kk.val, hk⟩ : Fin 4096) :=
    Fin.ext (by show 256 * ((16 * (t.val / 16) + s) % 16) + kk.val = 256 * s + kk.val; omega)
  rw [e1, e2, e3]

/-- THE OUTPUT BLOCK a run's last point stores, at an entry: the specification's entry at the block's row and column. -/
theorem outblk_at (c : Dev nD) (t : Fin cfg0.N) (h15 : t.val % 16 = 15) (hlt : t.val - 1 < cfg0.N) (hc0 hc1)
    (y : S1024x2048.Idx) :
    out0_C_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) hlt).2 y
      = Cert.Spec.outAt (m ((c : Thread nD τ).loc main_arg0)) (m ((c : Thread nD τ).loc main_arg1))
          (m ((c : Thread nD τ).loc main_arg2)) (m ((c : Thread nD τ).loc main_arg3)) (m ((c : Thread nD τ).loc main_arg4))
          (rowOf t ⟨(y 0).val, idx2_lt0 y⟩) (colOf t ⟨(y 1).val, idx2_lt1 y⟩) := by
  obtain ⟨p, q, rfl⟩ : ∃ (p : Fin 1024) (q : Fin 2048), y = ix2 p q := ⟨y 0, y 1, eq_ix2 y⟩
  have ht := lt256 t
  refine (congrFun (pieceC3 (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)
    (outsAt0 m c (t.val - 1) hlt).2) (ix2 p q)).trans ?_
  refine (pay3_apply _ (bblk m c t) p q).trans ?_
  rw [bblk_apply]
  refine congrArg (· + _) ?_
  refine (pay2_apply (xblk m c t) (wblk m c t) _ p q).trans ?_
  have hS := scratch_apply m c (t.val - 1) hlt (ix2 p q)
  rw [show (t.val - 1) % 16 + 1 = 15 by omega, show (t.val - 1) / 16 = t.val / 16 by omega] at hS
  have hlast : ∑ kk : Fin 256, xblk m c t (ix2 p kk) * wblk m c t (ix2 kk q) = addend m c (16 * (t.val / 16) + 15) (ix2 p q) := by
    have e : (⟨16 * (t.val / 16) + 15, lt_N (by omega)⟩ : Fin cfg0.N) = t := Fin.ext (by show 16 * (t.val / 16) + 15 = t.val; omega)
    unfold addend
    rw [dif_pos (lt_N (by omega) : 16 * (t.val / 16) + 15 < cfg0.N), e]
  rw [hS, hlast, ← Finset.sum_range_succ (fun s => addend m c (16 * (t.val / 16) + s) (ix2 p q)) 15,
    Cert.Spec.sum_4096_blocks]
  exact Finset.sum_congr rfl fun s hs => addend_eq m c t s (Finset.mem_range.mp hs) p q

/-- WHAT A WRITING POINT WRITES BACK is its block of the specification. -/
theorem flushed_eq (c : Dev nD) (t : Fin cfg0.N) (hf : (cfg0.win 3).flush t = true) :
    (dats m 0 c).flushed 3 t = ((cfg0.win 3).blk t).view.read (Elt Ideal) (result m c) := by
  have h15 := (flush0_3 t).mp hf
  have h0 : ¬ t.val % 16 = 0 := by omega
  rw [Value.flushed3_C m c t h0 h15]
  funext j
  refine (outblk_at m c t h15 _ _ _ ((cfg0.win 3).xinj (grid0.coords t) j)).trans ?_
  obtain ⟨-, -, -, -, -, -, e6, e7⟩ := idx_facts t
  show Cert.Spec.outAt _ _ _ _ _ _ _ = Cert.Spec.outAt _ _ _ _ _ _ _
  congr 1
  · exact Fin.ext (by show 1024 * (t.val / 32) + (j 0).val = win0_3.index t (0 : Fin 2) * 1024 + 1 * (j 0).val; omega)
  · exact Fin.ext (by show 2048 * (t.val / 16 % 2) + (j 1).val = win0_3.index t (1 : Fin 2) * 2048 + 1 * (j 1).val; omega)

/-- An index of the array is in point `t`'s output block iff each coordinate is in the block's range. -/
theorem mem_blk (t : Fin cfg0.N) (i : S8192x4096.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v22).slice (win0_3.rect t)).set ↔ _
  rw [View.set_slice_whole, Rect.mem_set_unit]
  exact Iff.rfl

/-- Every index of the array lies in the block some writing point writes: the last point of the run of its row and
    column block. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨32 * ((i 0).val / 1024) + 16 * ((i 1).val / 2048) + 15, lt_N (by omega)⟩
  have htv : t.val = 32 * ((i 0).val / 1024) + 16 * ((i 1).val / 2048) + 15 := rfl
  refine ⟨t, (flush0_3 t).mpr (by omega), ?_⟩
  rw [mem_blk]
  obtain ⟨-, -, -, -, -, -, e6, e7⟩ := idx_facts t
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE ARRAY after the run is the specification of the launch arguments. -/
theorem final (c : Dev nD) : (dats m 0 c).arrAt 3 cfg0.N = result m c :=
  (dats m 0 c).arrAt_eq_of_cover 3 (result m c) (fun t hf => flushed_eq m c t hf) cover

/-- The kernel's run: the result array ends at the specification, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Result

end Cert.KernelIdeal.KerValue
end
-- ==== Proof.RefTerm.lean ====
/-
  The reference program's result as one term of its five arguments, built from named stages: the column index
  vector `0 … 4095`; its remainder modulo 8 (times 4: the shift amounts); its floored quotients by 8 (the packed word
  of a column) and by 128 (the group of a column), each wrapped as a possibly negative index is; the three
  gathers along axis 1; the dequantised weight; and `x · Wᵀ + bias`.
  Every stage is the program's own operations in the program's order, so that the run's composed term is this
  one by unfolding.
-/
import proofs.«413098_j6992206758378_2_alg».proof.ReferenceIdeal

noncomputable section

namespace Cert.ReferenceIdeal.RefTerm

open Cert.ReferenceIdeal Idealize.ShloMosaic
open Cert.ReferenceIdeal.Facts₀

variable {F : FTy → Type} [FloatOps F] [Facts]

/-- A scalar integer constant spread over the 4096 columns. -/
def splat (b : BitVec 32) : IVec S4096 32 := broadcastInDim S4096 ![] bcast_S_S4096 (constantI S_ 32 b)

/-- The column numbers `0, 1, …, 4095`. -/
def kvec : IVec S4096 32 := iotaInDim S4096 32 0

/-- The divisor the remainder uses: `1` in place of a zero divisor, else the divisor. -/
def remDiv (d : IVec S_ 32) : IVec S_ 32 :=
  select (cmpi .eq (id d) (constantI S_ 32 0#32)) (constantI S_ 32 1#32) (id d)

/-- The truncating remainder of `x` by the (guarded) divisor. -/
def remTrunc (x : IVec S4096 32) (d : IVec S_ 32) : IVec S4096 32 :=
  Host.remsi x (broadcastInDim S4096 ![] bcast_S_S4096 (remDiv d))

/-- Python's remainder of `x` by `d`: the truncating remainder, plus the divisor where it is nonzero and its sign
    differs from the divisor's. -/
def remOf (x : IVec S4096 32) (d : IVec S_ 32) : IVec S4096 32 :=
  select
    (andi
      (cmpi .ne (cmpi .slt (remTrunc x d) (splat 0#32))
        (broadcastInDim S4096 ![] bcast_S_S4096 (cmpi .slt (remDiv d) (constantI S_ 32 0#32))))
      (cmpi .ne (remTrunc x d) (splat 0#32)))
    (addi (remTrunc x d) (broadcastInDim S4096 ![] bcast_S_S4096 (remDiv d)))
    (remTrunc x d)

/-- The truncating quotient of `x` by `d`. -/
def quoTrunc (x : IVec S4096 32) (d : IVec S_ 32) : IVec S4096 32 :=
  Host.divsi x (broadcastInDim S4096 ![] bcast_S_S4096 (id d))

/-- Python's floored quotient of `x` by `d`: the truncating quotient, less one where the signs differ and the
    remainder is nonzero. -/
def fdivOf (x : IVec S4096 32) (d : IVec S_ 32) : IVec S4096 32 :=
  select
    (andi
      (cmpi .ne (signi x) (broadcastInDim S4096 ![] bcast_S_S4096 (signi (id d))))
      (cmpi .ne (Host.remsi x (broadcastInDim S4096 ![] bcast_S_S4096 (id d))) (splat 0#32)))
    (subi (quoTrunc x d) (splat 1#32))
    (quoTrunc x d)

/-- An index that may be negative, wrapped by the axis length `n`. -/
def wrapIdx (x : IVec S4096 32) (n : BitVec 32) : IVec S4096 32 :=
  select (cmpi .slt x (splat 0#32)) (addi x (splat n)) x

/-- The shift amount of each column: `4 · (k mod 8)`. -/
def shifts : IVec S4096 32 := muli (remOf kvec (constantI S_ 32 8#32)) (splat 4#32)

/-- The packed word of each column: `k div 8`, as a gather index. -/
def colIdx : IVec S4096x1 32 :=
  broadcastInDim S4096x1 ![0] bcast_S4096_S4096x1_0 (wrapIdx (fdivOf kvec (constantI S_ 32 8#32)) 512#32)

/-- The group of each column: `k div 128`, as a gather index. -/
def grpIdx : IVec S4096x1 32 :=
  broadcastInDim S4096x1 ![0] bcast_S4096_S4096x1_0 (wrapIdx (fdivOf kvec (constantI S_ 32 128#32)) 32#32)

/-- The 4-bit fields `[out row, column]`. -/
def fields (q : IVec S4096x512 32) : IVec S4096x4096 32 :=
  andi
    (Host.shrsi (Host.gather gather_S4096x512_S4096x1_S4096x4096_0_1_n_n_1_1_40961 q colIdx)
      (broadcastInDim S4096x4096 ![0, 1] bcast_S1x4096_S4096x4096_0_1
        (broadcastInDim S1x4096 ![1] bcast_S4096_S1x4096_1 shifts)))
    (broadcastInDim S4096x4096 ![] bcast_S_S4096x4096 (constantI S_ 32 15#32))

/-- The dequantised weight `[out row, column]`. -/
def refW (q : IVec S4096x512 32) (sc zs : FVec F S4096x32 .f32) : FVec F S4096x4096 .f32 :=
  mulf
    (subf (sitofp .f32 (fields q))
      (Host.gather gather_S4096x32_S4096x1_S4096x4096_0_1_n_n_1_1_40961 zs grpIdx))
    (Host.gather gather_S4096x32_S4096x1_S4096x4096_0_1_n_n_1_1_40961 sc grpIdx)

/-- The reference's result: `x · Wᵀ + bias`. -/
def refOut (x : FVec F S8192x4096 .f32) (q : IVec S4096x512 32) (sc zs : FVec F S4096x32 .f32)
    (b : FVec F S4096 .f32) : FVec F S8192x4096 .f32 :=
  addf
    (Host.dotGeneral dot_S8192x4096_S4096x4096_S8192x4096_1_0_0_1_n_n none x
      (transpose S4096x4096 [1, 0] (refW q sc zs) transposes_S4096x4096_S4096x4096_1_0))
    (broadcastInDim S8192x4096 ![0, 1] bcast_S1x4096_S8192x4096_0_1
      (broadcastInDim S1x4096 ![1] bcast_S4096_S1x4096_1 b))

end Cert.ReferenceIdeal.RefTerm

end
-- ==== Proof.RefRun.lean ====
/-
  The reference program's run: every weakly fair execution ends with the result buffer at `RefTerm.refOut` of the
  five argument arrays, the arguments unchanged.
-/
import proofs.«413098_j6992206758378_2_alg».proof.Proof.Gen.ReferenceIdeal
import proofs.«413098_j6992206758378_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 103 operations in order, the three calls unfolded at their call sites over the calls' buffer records:
    the column numbers and the divisor `8`; `remainder`'s twenty-one (the divisor converted, the guard against a
    zero divisor through `_where`'s select, the truncating remainder, the two sign tests and the test for a nonzero
    remainder, the correction and the select between them); the factor `4` and the product; `floor_divide`'s
    seventeen by `8` (the truncating quotient, the signs, the truncating remainder and its test, the quotient less
    one, `_where_0`'s select); the wrap by `512`, the gather of the packed words, the shift and the mask;
    `floor_divide`'s seventeen by `128`; the conversion; the wrap by `32` and the gather of the zero points, the
    difference; the wrap by `32` again and the gather of the scales, the product; the transpose, the contraction,
    the bias broadcast twice and the sum. -/
abbrev ops : List (HloOp τ sig (Elt F)) :=
  [ nullary main_v0 (iotaInDim S4096 32 0),
    nullary main_c (constantI S_ 32 8#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_v0) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    nullary main_c_0 (constantI S_ 32 4#32),
    unary main_c_0 main_v2 (broadcastInDim S4096 ![] bcast_S_S4096 : (⟨S_, .i32⟩ : BufTy).Contents (Elt F) → (⟨S4096, .i32⟩ : BufTy).Contents (Elt F)),
    binary main_v1 main_v2 main_v3 (muli : (⟨S4096, .i32⟩ : BufTy).Contents (Elt F) → (⟨S4096, .i32⟩ : BufTy).Contents (Elt F) → (⟨S4096, .i32⟩ : BufTy).Contents (Elt F)),
    nullary main_c_1 (constantI S_ 32 8#32),
    TRef.unary (.of main_c_1) main_call1.v0 id,
    TRef.unary main_call1.v0 main_call1.v1 (broadcastInDim S4096 ![] bcast_S_S4096),
    TRef.binary (.of main_v0) main_call1.v1 main_call1.v2 Host.divsi,
    TRef.unary (.of main_v0) main_call1.v3 signi,
    TRef.unary main_call1.v0 main_call1.v4 signi,
    TRef.unary main_call1.v4 main_call1.v5 (broadcastInDim S4096 ![] bcast_S_S4096),
    TRef.binary main_call1.v3 main_call1.v5 main_call1.v6 (cmpi .ne),
    TRef.unary main_call1.v0 main_call1.v7 (broadcastInDim S4096 ![] bcast_S_S4096),
    TRef.binary (.of main_v0) main_call1.v7 main_call1.v8 Host.remsi,
    TRef.nullary main_call1.c (constantI S_ 32 0#32),
    TRef.unary main_call1.c main_call1.v9 (broadcastInDim S4096 ![] bcast_S_S4096),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S4096 ![] bcast_S_S4096),
    TRef.binary main_call1.v2 main_call1.v12 main_call1.v13 subi,
    TRef.ternary main_call1.v11 main_call1.v13 main_call1.v2 main_call1.call0.v0 select,
    nullary main_c_2 (constantI S_ 32 0#32),
    unary main_c_2 main_v5 (broadcastInDim S4096 ![] bcast_S_S4096 : (⟨S_, .i32⟩ : BufTy).Contents (Elt F) → (⟨S4096, .i32⟩ : BufTy).Contents (Elt F)),
    binary main_v4 main_v5 main_v6 (cmpi .slt : (⟨S4096, .i32⟩ : BufTy).Contents (Elt F) → (⟨S4096, .i32⟩ : BufTy).Contents (Elt F) → (⟨S4096, .i1⟩ : BufTy).Contents (Elt F)),
    nullary main_c_3 (constantI S_ 32 512#32),
    unary main_c_3 main_v7 (broadcastInDim S4096 ![] bcast_S_S4096 : (⟨S_, .i32⟩ : BufTy).Contents (Elt F) → (⟨S4096, .i32⟩ : BufTy).Contents (Elt F)),
    binary main_v4 main_v7 main_v8 (addi : (⟨S4096, .i32⟩ : BufTy).Contents (Elt F) → (⟨S4096, .i32⟩ : BufTy).Contents (Elt F) → (⟨S4096, .i32⟩ : BufTy).Contents (Elt F)),
    ternary main_v6 main_v8 main_v4 main_v9 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v9 main_v10 (broadcastInDim S4096x1 ![0] bcast_S4096_S4096x1_0 : (⟨S4096, .i32⟩ : BufTy).Contents (Elt F) → (⟨S4096x1, .i32⟩ : BufTy).Contents (Elt F)),
    binary main_arg1 main_v10 main_v11 ((fun x i => Host.gather gather_S4096x512_S4096x1_S4096x4096_0_1_n_n_1_1_40961 x i) : (⟨S4096x512, .i32⟩ : BufTy).Contents (Elt F) → (⟨S4096x1, .i32⟩ : BufTy).Contents (Elt F) → (⟨S4096x4096, .i32⟩ : BufTy).Contents (Elt F)),
    unary main_v3 main_v12 (broadcastInDim S1x4096 ![1] bcast_S4096_S1x4096_1 : (⟨S4096, .i32⟩ : BufTy).Contents (Elt F) → (⟨S1x4096, .i32⟩ : BufTy).Contents (Elt F)),
    unary main_v12 main_v13 (broadcastInDim S4096x4096 ![0, 1] bcast_S1x4096_S4096x4096_0_1 : (⟨S1x4096, .i32⟩ : BufTy).Contents (Elt F) → (⟨S4096x4096, .i32⟩ : BufTy).Contents (Elt F)),
    binary main_v11 main_v13 main_v14 (Host.shrsi : (⟨S4096x4096, .i32⟩ : BufTy).Contents (Elt F) → (⟨S4096x4096, .i32⟩ : BufTy).Contents (Elt F) → (⟨S4096x4096, .i32⟩ : BufTy).Contents (Elt F)),
    nullary main_c_4 (constantI S_ 32 15#32),
    unary main_c_4 main_v15 (broadcastInDim S4096x4096 ![] bcast_S_S4096x4096 : (⟨S_, .i32⟩ : BufTy).Contents (Elt F) → (⟨S4096x4096, .i32⟩ : BufTy).Contents (Elt F)),
    binary main_v14 main_v15 main_v16 (andi : (⟨S4096x4096, .i32⟩ : BufTy).Contents (Elt F) → (⟨S4096x4096, .i32⟩ : BufTy).Contents (Elt F) → (⟨S4096x4096, .i32⟩ : BufTy).Contents (Elt F)),
    nullary main_c_5 (constantI S_ 32 128#32),
    TRef.unary (.of main_c_5) main_call2.v0 id,
    TRef.unary main_call2.v0 main_call2.v1 (broadcastInDim S4096 ![] bcast_S_S4096),
    TRef.binary (.of main_v0) main_call2.v1 main_call2.v2 Host.divsi,
    TRef.unary (.of main_v0) main_call2.v3 signi,
    TRef.unary main_call2.v0 main_call2.v4 signi,
    TRef.unary main_call2.v4 main_call2.v5 (broadcastInDim S4096 ![] bcast_S_S4096),
    TRef.binary main_call2.v3 main_call2.v5 main_call2.v6 (cmpi .ne),
    TRef.unary main_call2.v0 main_call2.v7 (broadcastInDim S4096 ![] bcast_S_S4096),
    TRef.binary (.of main_v0) main_call2.v7 main_call2.v8 Host.remsi,
    TRef.nullary main_call2.c (constantI S_ 32 0#32),
    TRef.unary main_call2.c main_call2.v9 (broadcastInDim S4096 ![] bcast_S_S4096),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S4096 ![] bcast_S_S4096),
    TRef.binary main_call2.v2 main_call2.v12 main_call2.v13 subi,
    TRef.ternary main_call2.v11 main_call2.v13 main_call2.v2 main_call2.call0.v0 select,
    unary main_v16 main_v18 (sitofp .f32 : (⟨S4096x4096, .i32⟩ : BufTy).Contents (Elt F) → (⟨S4096x4096, .f32⟩ : BufTy).Contents (Elt F)),
    nullary main_c_6 (constantI S_ 32 0#32),
    unary main_c_6 main_v19 (broadcastInDim S4096 ![] bcast_S_S4096 : (⟨S_, .i32⟩ : BufTy).Contents (Elt F) → (⟨S4096, .i32⟩ : BufTy).Contents (Elt F)),
    binary main_v17 main_v19 main_v20 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32#32),
    unary main_c_7 main_v21 (broadcastInDim S4096 ![] bcast_S_S4096 : (⟨S_, .i32⟩ : BufTy).Contents (Elt F) → (⟨S4096, .i32⟩ : BufTy).Contents (Elt F)),
    binary main_v17 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_v17 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v23 main_v24 (broadcastInDim S4096x1 ![0] bcast_S4096_S4096x1_0 : (⟨S4096, .i32⟩ : BufTy).Contents (Elt F) → (⟨S4096x1, .i32⟩ : BufTy).Contents (Elt F)),
    binary main_arg3 main_v24 main_v25 ((fun x i => Host.gather gather_S4096x32_S4096x1_S4096x4096_0_1_n_n_1_1_40961 x i) : (⟨S4096x32, .f32⟩ : BufTy).Contents (Elt F) → (⟨S4096x1, .i32⟩ : BufTy).Contents (Elt F) → (⟨S4096x4096, .f32⟩ : BufTy).Contents (Elt F)),
    binary main_v18 main_v25 main_v26 (subf : (⟨S4096x4096, .f32⟩ : BufTy).Contents (Elt F) → (⟨S4096x4096, .f32⟩ : BufTy).Contents (Elt F) → (⟨S4096x4096, .f32⟩ : BufTy).Contents (Elt F)),
    nullary main_c_8 (constantI S_ 32 0#32),
    unary main_c_8 main_v27 (broadcastInDim S4096 ![] bcast_S_S4096 : (⟨S_, .i32⟩ : BufTy).Contents (Elt F) → (⟨S4096, .i32⟩ : BufTy).Contents (Elt F)),
    binary main_v17 main_v27 main_v28 (cmpi .slt : (⟨S4096, .i32⟩ : BufTy).Contents (Elt F) → (⟨S4096, .i32⟩ : BufTy).Contents (Elt F) → (⟨S4096, .i1⟩ : BufTy).Contents (Elt F)),
    nullary main_c_9 (constantI S_ 32 32#32),
    unary main_c_9 main_v29 (broadcastInDim S4096 ![] bcast_S_S4096 : (⟨S_, .i32⟩ : BufTy).Contents (Elt F) → (⟨S4096, .i32⟩ : BufTy).Contents (Elt F)),
    binary main_v17 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_v17 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v31 main_v32 (broadcastInDim S4096x1 ![0] bcast_S4096_S4096x1_0 : (⟨S4096, .i32⟩ : BufTy).Contents (Elt F) → (⟨S4096x1, .i32⟩ : BufTy).Contents (Elt F)),
    binary main_arg2 main_v32 main_v33 ((fun x i => Host.gather gather_S4096x32_S4096x1_S4096x4096_0_1_n_n_1_1_40961 x i) : (⟨S4096x32, .f32⟩ : BufTy).Contents (Elt F) → (⟨S4096x1, .i32⟩ : BufTy).Contents (Elt F) → (⟨S4096x4096, .f32⟩ : BufTy).Contents (Elt F)),
    binary main_v26 main_v33 main_v34 (mulf : (⟨S4096x4096, .f32⟩ : BufTy).Contents (Elt F) → (⟨S4096x4096, .f32⟩ : BufTy).Contents (Elt F) → (⟨S4096x4096, .f32⟩ : BufTy).Contents (Elt F)),
    unary main_v34 main_v35 ((transpose S4096x4096 [1, 0] · transposes_S4096x4096_S4096x4096_1_0) : (⟨S4096x4096, .f32⟩ : BufTy).Contents (Elt F) → (⟨S4096x4096, .f32⟩ : BufTy).Contents (Elt F)),
    binary main_arg0 main_v35 main_v36 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg4 main_v37 (broadcastInDim S1x4096 ![1] bcast_S4096_S1x4096_1 : (⟨S4096, .f32⟩ : BufTy).Contents (Elt F) → (⟨S1x4096, .f32⟩ : BufTy).Contents (Elt F)),
    unary main_v37 main_v38 (broadcastInDim S8192x4096 ![0, 1] bcast_S1x4096_S8192x4096_0_1 : (⟨S1x4096, .f32⟩ : BufTy).Contents (Elt F) → (⟨S8192x4096, .f32⟩ : BufTy).Contents (Elt F)),
    binary main_v36 main_v38 main_v39 (addf : (⟨S8192x4096, .f32⟩ : BufTy).Contents (Elt F) → (⟨S8192x4096, .f32⟩ : BufTy).Contents (Elt F) → (⟨S8192x4096, .f32⟩ : BufTy).Contents (Elt F)) ]

-- one hundred and three binds: both sides reduce to the same chain of steps, the recursion one level per statement
set_option maxRecDepth 16384 in
/-- @main is that straight line: the functions' bodies unfolded at their calls and the records at their fields,
    both sides are one chain of `hlo` steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., binary_bufs_sub .., unary_bufs_sub .., unary_bufs_sub ..,
    binary_bufs_sub ..⟩

set_option maxRecDepth 16384 in
set_option maxHeartbeats 8000000 in
/-- The fold at the result buffer is `RefTerm.refOut` of the arguments' contents: each operation's result read at its
    own buffer is its function's value and at any other buffer what was there, which composes the operations'
    functions in the program's order; the transports of a call's typed references are the identity; and the
    stages of `RefTerm.refOut` unfolded are that same composition, term for term. -/
theorem out_eq (V : Valuation τ sig (Elt F)) :
    after ops V (main_v39 : DevRef τ sig)
      = RefTerm.refOut (V (main_arg0 : DevRef τ sig)) (V (main_arg1 : DevRef τ sig)) (V (main_arg2 : DevRef τ sig))
          (V (main_arg3 : DevRef τ sig)) (V (main_arg4 : DevRef τ sig)) := by
  after_results_simp
  simp only [TRef.toBuf, TRef.ofBuf, cast_eq]
  unfold RefTerm.refOut RefTerm.refW RefTerm.fields RefTerm.grpIdx RefTerm.colIdx RefTerm.shifts RefTerm.wrapIdx RefTerm.fdivOf RefTerm.quoTrunc RefTerm.remOf RefTerm.remTrunc RefTerm.remDiv RefTerm.kvec RefTerm.splat
  with_reducible rfl

/-! No operation writes an argument's buffer: the fold leaves each at its launch contents. -/

set_option maxHeartbeats 2000000 in
theorem arg0_eq (V : Valuation τ sig (Elt F)) :
    after ops V (main_arg0 : DevRef τ sig) = V (main_arg0 : DevRef τ sig) := by
  after_results_simp

set_option maxHeartbeats 2000000 in
theorem arg1_eq (V : Valuation τ sig (Elt F)) :
    after ops V (main_arg1 : DevRef τ sig) = V (main_arg1 : DevRef τ sig) := by
  after_results_simp

set_option maxHeartbeats 2000000 in
theorem arg2_eq (V : Valuation τ sig (Elt F)) :
    after ops V (main_arg2 : DevRef τ sig) = V (main_arg2 : DevRef τ sig) := by
  after_results_simp

set_option maxHeartbeats 2000000 in
theorem arg3_eq (V : Valuation τ sig (Elt F)) :
    after ops V (main_arg3 : DevRef τ sig) = V (main_arg3 : DevRef τ sig) := by
  after_results_simp

set_option maxHeartbeats 2000000 in
theorem arg4_eq (V : Valuation τ sig (Elt F)) :
    after ops V (main_arg4 : DevRef τ sig) = V (main_arg4 : DevRef τ sig) := by
  after_results_simp

/-- On the device, for any float values, from any memory with zero counters: every weakly fair execution of @main
    terminates with the result buffer at `RefTerm.refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = RefTerm.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c => ⟨(h c main_v39).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefCols.lean ====
/-
  The reference's three integer chains, read at one column `k` of the 4096: Python's remainder `k % 8` and floored
  quotients `k // 8`, `k // 128` of a nonnegative column number are the ordinary remainder and quotients, and the wrap of
  a negative index never fires. Each chain is pointwise, so at a column it is a closed expression in the 32-bit word of
  `k`; the three facts are then checked at every one of the 4096 columns.
-/
import proofs.«413098_j6992206758378_2_alg».proof.Proof.RefTerm
import Idealize.ShloMosaic.Lib.ValueIdx

noncomputable section

namespace Cert.ReferenceIdeal.RefCols

open Cert.ReferenceIdeal Idealize.ShloMosaic Idealize.ShloMosaic.ValueIdx

/-- Python's remainder of the word `x` by `d`, as the reference computes it at one column: the truncating remainder by
    the guarded divisor, plus that divisor where the remainder is nonzero and of the other sign. -/
def remS (x d : BitVec 32) : BitVec 32 :=
  let d' := Scalar.select (IntOp.cmpi .eq d 0#32) 1#32 d
  let r := IntOp.remsi .host x d'
  Scalar.select
    (IntOp.andi (IntOp.cmpi .ne (IntOp.cmpi .slt r 0#32) (IntOp.cmpi .slt d' 0#32)) (IntOp.cmpi .ne r 0#32))
    (IntOp.addi r d') r

/-- The sign of a word: `0`, `-1` or `1`. -/
def sgn (x : BitVec 32) : BitVec 32 := if x = 0 then 0 else if x.msb then -1 else 1

/-- Python's floored quotient of the word `x` by `d`, as the reference computes it at one column: the truncating
    quotient, less one where the signs differ and the remainder is nonzero. -/
def fdivS (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- A possibly negative index wrapped by the axis length `n`. -/
def wrapS (x n : BitVec 32) : BitVec 32 := Scalar.select (IntOp.cmpi .slt x 0#32) (IntOp.addi x n) x

/-- At every column the remainder chain by 8 is `k % 8`. -/
theorem remS_8 : ∀ k : Fin 4096, remS (BitVec.ofNat 32 k.val) 8#32 = BitVec.ofNat 32 (k.val % 8) := by
  decide +kernel

/-- At every column the wrapped floored quotient by 8, read as a signed integer, is `k / 8`. -/
theorem wrap_fdiv_8 : ∀ k : Fin 4096, (wrapS (fdivS (BitVec.ofNat 32 k.val) 8#32) 512#32).toInt.toNat = k.val / 8 := by
  decide +kernel

/-- At every column the wrapped floored quotient by 128, read as a signed integer, is `k / 128`. -/
theorem wrap_fdiv_128 :
    ∀ k : Fin 4096, (wrapS (fdivS (BitVec.ofNat 32 k.val) 128#32) 32#32).toInt.toNat = k.val / 128 := by
  decide +kernel

variable [Facts]

/-- The shift amount of column `k` is `4 · (k % 8)`. -/
theorem shifts_at (k : Fin 4096) : RefTerm.shifts (ix1 k) = IntOp.muli (BitVec.ofNat 32 (k.val % 8)) 4#32 := by
  refine Eq.trans (?_ : _ = IntOp.muli (remS (BitVec.ofNat 32 k.val) 8#32) 4#32) (by rw [remS_8 k])
  rfl

/-- The packed-word index of column `k`, read as a signed integer, is `k / 8`. -/
theorem colWord_at (k : Fin 4096) :
    (RefTerm.wrapIdx (RefTerm.fdivOf RefTerm.kvec (constantI S_ 32 8#32)) 512#32 (ix1 k)).toInt.toNat = k.val / 8 :=
  wrap_fdiv_8 k

/-- The group index of column `k`, read as a signed integer, is `k / 128`. -/
theorem grpWord_at (k : Fin 4096) :
    (RefTerm.wrapIdx (RefTerm.fdivOf RefTerm.kvec (constantI S_ 32 128#32)) 32#32 (ix1 k)).toInt.toNat = k.val / 128 :=
  wrap_fdiv_128 k

end Cert.ReferenceIdeal.RefCols

end
-- ==== Proof.RefValue.lean ====
/-
  The reference's result term, read at the extended reals, is the specification: entry `(r, n)` is the sum over the
  4096 columns of `x[r, k] · W[n, k]` plus `bias[n]`, with `W` the dequantised weight.

  The steps: a gather along axis 1 that keeps axis 0 whole reads, at `(o, k)`, row `o` of its operand at the column
  its start index names (read signed, clamped into the row); the start indices of column `k` are `k / 8` for the
  packed words and `k / 128` for the groups, and the shift amount is `4 · (k % 8)`; so the field and the dequantised
  weight at `(o, k)` are the specification's; the contraction of `x`'s axis 1 with the transposed weight's axis 0 is
  the sum over the columns; the bias is spread over the rows.
-/
import proofs.«413098_j6992206758378_2_alg».proof.Proof.Gen.ReferenceIdeal
import proofs.«413098_j6992206758378_2_alg».proof.Proof.RefTerm
import proofs.«413098_j6992206758378_2_alg».proof.Proof.RefCols
import proofs.«413098_j6992206758378_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.ReferenceIdeal.RefValue

open Cert.ReferenceIdeal Cert.ReferenceIdeal.Gen Idealize.ShloMosaic Idealize.ShloMosaic.ValueIdx

/-! ## A gather along axis 1, read at an element -/

section Gather
variable {α : Type}

/-- The dimension numbers of a gather along axis 1 that keeps axis 0 whole: operand `[R, N]`, start indices `[C, 1]`,
    result `[R, C]`. -/
abbrev colDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- That gather read at `(o, k)`: the operand's row `o` at the column the start index `idx[k, 0]` names, read signed
    and clamped into `[0, N − 1]`. -/
theorem gather_col_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (o : Fin R) (k : Fin C) :
    Host.gather (colDims R N C wf) x idx (ix2 o k)
      = x (ix2 o ⟨min (idx (ix2 k (0 : Fin 1))).toInt.toNat (N - 1), by omega⟩) := by
  unfold Host.gather
  congr 1
  funext a
  refine Fin.ext ?_
  match a with
  | ⟨0, _⟩ =>
    show (colDims R N C wf).start (ix2 o k) idx 0 + (colDims R N C wf).batchCoord (ix2 o k) 0
      + (colDims R N C wf).offCoord (ix2 o k) 0 = o.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).mpr ⟨show (0 : Fin 2) ∉ ([1] : List (Fin 2)) by decide, List.not_mem_nil⟩)]
    simp only [Nat.add_zero, Nat.zero_add]
    rfl
  | ⟨1, _⟩ =>
    show (colDims R N C wf).start (ix2 o k) idx 1 + (colDims R N C wf).batchCoord (ix2 o k) 1
      + (colDims R N C wf).offCoord (ix2 o k) 1 = min (idx (ix2 k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N C wf).startIndexMap from List.mem_singleton.mpr rfl)]
    have hsi : (colDims R N C wf).siIdx (ix2 o k) ⟨List.idxOf (1 : Fin 2) (colDims R N C wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Gather

section AtElement

variable [Facts]

/-! ## The index arrays and the broadcasts at an element -/

/-- The packed-word index array at `(k, 0)` is the wrapped quotient vector at `k`. -/
theorem colIdx_at (k : Fin 4096) : RefTerm.colIdx (ix2 k (0 : Fin 1))
    = RefTerm.wrapIdx (RefTerm.fdivOf RefTerm.kvec (constantI S_ 32 8#32)) 512#32 (ix1 k) := by
  unfold RefTerm.colIdx
  exact broadcastInDim_apply _ _ _ _ _ fun a => match a with | ⟨0, _⟩ => rfl

/-- The group index array at `(k, 0)` is the wrapped quotient vector at `k`. -/
theorem grpIdx_at (k : Fin 4096) : RefTerm.grpIdx (ix2 k (0 : Fin 1))
    = RefTerm.wrapIdx (RefTerm.fdivOf RefTerm.kvec (constantI S_ 32 128#32)) 32#32 (ix1 k) := by
  unfold RefTerm.grpIdx
  exact broadcastInDim_apply _ _ _ _ _ fun a => match a with | ⟨0, _⟩ => rfl

/-- A vector over the columns laid along axis 1 of a `[1, 4096]` row reads, at `(0, k)`, the vector at `k`. -/
theorem row_at {α : Type} (v : S4096.Idx → α) (k : Fin 4096) :
    broadcastInDim S1x4096 ![1] Facts₀.bcast_S4096_S1x4096_1 v (ix2 (0 : Fin 1) k) = v (ix1 k) :=
  broadcastInDim_apply _ _ _ _ _ fun a => match a with | ⟨0, _⟩ => rfl

/-- The shift amounts spread over the weight's rows read, at `(o, k)`, the amount of column `k`. -/
theorem shiftsMat_at (o k : Fin 4096) :
    broadcastInDim S4096x4096 ![0, 1] Facts₀.bcast_S1x4096_S4096x4096_0_1
      (broadcastInDim S1x4096 ![1] Facts₀.bcast_S4096_S1x4096_1 RefTerm.shifts) (ix2 o k) = RefTerm.shifts (ix1 k) := by
  refine (broadcastInDim_apply _ _ _ (ix2 o k) (ix2 (0 : Fin 1) k) fun a => ?_).trans (row_at _ k)
  match a with
  | ⟨0, _⟩ => rfl
  | ⟨1, _⟩ => rfl

/-- The bias spread over the result's rows reads, at `(r, n)`, the bias of column `n`. -/
theorem biasMat_at (b : FVec Ideal S4096 .f32) (r : Fin 8192) (n : Fin 4096) :
    broadcastInDim S8192x4096 ![0, 1] Facts₀.bcast_S1x4096_S8192x4096_0_1
      (broadcastInDim S1x4096 ![1] Facts₀.bcast_S4096_S1x4096_1 b) (ix2 r n) = b (ix1 n) := by
  refine (broadcastInDim_apply _ _ _ (ix2 r n) (ix2 (0 : Fin 1) n) fun a => ?_).trans (row_at _ n)
  match a with
  | ⟨0, _⟩ => rfl
  | ⟨1, _⟩ => rfl

/-! ## The three gathers at an element -/

/-- The gather of the packed words reads, at `(o, k)`, word `k / 8` of row `o`. -/
theorem gatherQ_at (q : IVec S4096x512 32) (o k : Fin 4096) :
    Host.gather gather_S4096x512_S4096x1_S4096x4096_0_1_n_n_1_1_40961 q RefTerm.colIdx (ix2 o k)
      = q (ix2 o ⟨k.val / 8, by have := k.isLt; omega⟩) := by
  refine (gather_col_apply (by decide) Facts₀.gather_S4096x512_S4096x1_S4096x4096_0_1_n_n_1_1_40961_wf q RefTerm.colIdx o k).trans
    (congrArg (fun c => q (ix2 o c)) (Fin.ext ?_))
  show min (RefTerm.colIdx (ix2 k (0 : Fin 1))).toInt.toNat (512 - 1) = k.val / 8
  rw [colIdx_at, RefCols.colWord_at]
  have := k.isLt
  omega

/-- A gather of a per-group array reads, at `(o, k)`, group `k / 128` of row `o`. -/
theorem gatherG_at {α : Type} (g : S4096x32.Idx → α) (o k : Fin 4096) :
    Host.gather gather_S4096x32_S4096x1_S4096x4096_0_1_n_n_1_1_40961 g RefTerm.grpIdx (ix2 o k)
      = g (ix2 o ⟨k.val / 128, by have := k.isLt; omega⟩) := by
  refine (gather_col_apply (by decide) Facts₀.gather_S4096x32_S4096x1_S4096x4096_0_1_n_n_1_1_40961_wf g RefTerm.grpIdx o k).trans
    (congrArg (fun c => g (ix2 o c)) (Fin.ext ?_))
  show min (RefTerm.grpIdx (ix2 k (0 : Fin 1))).toInt.toNat (32 - 1) = k.val / 128
  rw [grpIdx_at, RefCols.grpWord_at]
  have := k.isLt
  omega

/-! ## The fields and the dequantised weight at an element -/

/-- The 4-bit field at `(o, k)` is the specification's. -/
theorem fields_at (q : IVec S4096x512 32) (o k : Fin 4096) : RefTerm.fields q (ix2 o k) = Cert.Spec.nib q o k := by
  show IntOp.andi (IntOp.shrsi .host
      (Host.gather gather_S4096x512_S4096x1_S4096x4096_0_1_n_n_1_1_40961 q RefTerm.colIdx (ix2 o k))
      (broadcastInDim S4096x4096 ![0, 1] Facts₀.bcast_S1x4096_S4096x4096_0_1
        (broadcastInDim S1x4096 ![1] Facts₀.bcast_S4096_S1x4096_1 RefTerm.shifts) (ix2 o k))) 15#32 = _
  rw [gatherQ_at, shiftsMat_at, RefCols.shifts_at]
  rfl

/-- The dequantised weight at `(o, k)` is the specification's. -/
theorem refW_at (q : IVec S4096x512 32) (sc zs : FVec Ideal S4096x32 .f32) (o k : Fin 4096) :
    RefTerm.refW (F := Ideal) q sc zs (ix2 o k) = Cert.Spec.wdq q sc zs o k := by
  show ((FloatOps.sitofp (F := Ideal) .f32 (RefTerm.fields q (ix2 o k)) : Ideal .f32)
      - Host.gather gather_S4096x32_S4096x1_S4096x4096_0_1_n_n_1_1_40961 zs RefTerm.grpIdx (ix2 o k))
    * Host.gather gather_S4096x32_S4096x1_S4096x4096_0_1_n_n_1_1_40961 sc RefTerm.grpIdx (ix2 o k) = _
  rw [fields_at, gatherG_at, gatherG_at]
  rfl

/-! ## The contraction as a sum, and the result -/

/-- The reference's contraction read at `(r, n)`: the sum over the columns of the left entry times the right. -/
theorem dot_at (A : FVec Ideal S8192x4096 .f32) (B : FVec Ideal S4096x4096 .f32) (r : Fin 8192) (n : Fin 4096) :
    Host.dotGeneral dot_S8192x4096_S4096x4096_S8192x4096_1_0_0_1_n_n none A B (ix2 r n)
      = ∑ c : Fin 4096, A (ix2 r c) * B (ix2 c n) :=
  StackMember.dotGeneral_plain_apply none A B r n

/-- The reference's result at `(r, n)` is the specification's entry. -/
theorem refOut_at (x : FVec Ideal S8192x4096 .f32) (q : IVec S4096x512 32) (sc zs : FVec Ideal S4096x32 .f32)
    (b : FVec Ideal S4096 .f32) (r : Fin 8192) (n : Fin 4096) :
    RefTerm.refOut (F := Ideal) x q sc zs b (ix2 r n) = Cert.Spec.outAt x q sc zs b r n := by
  unfold Cert.Spec.outAt
  show Host.dotGeneral dot_S8192x4096_S4096x4096_S8192x4096_1_0_0_1_n_n none x
        (transpose S4096x4096 [1, 0] (RefTerm.refW q sc zs) Facts₀.transposes_S4096x4096_S4096x4096_1_0) (ix2 r n)
      + broadcastInDim S8192x4096 ![0, 1] Facts₀.bcast_S1x4096_S8192x4096_0_1
          (broadcastInDim S1x4096 ![1] Facts₀.bcast_S4096_S1x4096_1 b) (ix2 r n) = _
  rw [dot_at, biasMat_at]
  congr 1
  refine Finset.sum_congr rfl fun k _ => ?_
  rw [transpose_ix2_apply, refW_at]

end AtElement

theorem refOut_eq (x : FVec Ideal S8192x4096 .f32) (q : IVec S4096x512 32) (sc zs : FVec Ideal S4096x32 .f32)
    (b : FVec Ideal S4096 .f32) :
    RefTerm.refOut (F := Ideal) x q sc zs b = Cert.Spec.out x q sc zs b := by
  funext j
  obtain ⟨r, n, rfl⟩ : ∃ (r : Fin 8192) (n : Fin 4096), j = ix2 r n :=
    ⟨⟨(j 0).val, idx2_lt0 j⟩, ⟨(j 1).val, idx2_lt1 j⟩, eq_ix2 j⟩
  rw [Cert.Spec.out_ix2]
  exact refOut_at x q sc zs b r n

end Cert.ReferenceIdeal.RefValue

end
-- ==== Proof.lean ====
/-
  The certificate of an int4 group-quantised linear layer: a Pallas matmul kernel over host-side dequantisation,
  against the plain `x @ dequant(qweight).T + bias`.

  Both programs build the same dequantised weight `W[o, k] = (float((q[o, k/8] >> 4·(k%8)) & 15) − zero[o, k/128]) ·
  scale[o, k/128]`: the kernel's program by repeating each packed word along a new axis of eight shift amounts and
  regrouping, the reference by gathering word `k / 8`, shift `4·(k % 8)` and group `k / 128` through index vectors it
  computes with Python's remainder and floored quotient. The kernel's program then rounds `W` and `x` to bf16 (the
  identity at the extended reals), and accumulates `x · Wᵀ` over sixteen blocks of 256 columns into a scratch block,
  adding the bias at the last; the reference contracts all 4096 columns at once. Sixteen sums of 256 products are the
  one sum of 4096 (addition of extended reals is associative and commutative; no finiteness is used), so both results
  are `Spec.out`: entry `(r, n)` is `(∑ k, x[r, k] · W[n, k]) + bias[n]`.

  The two kernel frames are the generated frame certificates; the reference's frame is its run with the result
  dropped; the idealisation rewrote nothing.
-/
import proofs.«413098_j6992206758378_2_alg».proof.Defs
import proofs.«413098_j6992206758378_2_alg».proof.Proof.Gen.Kernel
import proofs.«413098_j6992206758378_2_alg».proof.Proof.Gen.Kernel.Frame
import proofs.«413098_j6992206758378_2_alg».proof.Proof.Gen.KernelIdeal
import proofs.«413098_j6992206758378_2_alg».proof.Proof.Gen.KernelIdeal.Frame
import proofs.«413098_j6992206758378_2_alg».proof.Proof.Gen.KernelIdeal.Value
import proofs.«413098_j6992206758378_2_alg».proof.Proof.Gen.ReferenceIdeal
import proofs.«413098_j6992206758378_2_alg».proof.Proof.Gen.Pre_finite_inputs
import proofs.«413098_j6992206758378_2_alg».proof.Proof.KerValue
import proofs.«413098_j6992206758378_2_alg».proof.Proof.RefRun
import proofs.«413098_j6992206758378_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the five arguments both programs end with the result array at the specification
    of those arguments. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
